-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S4096x128 : Shape := ⟨2, ![4096, 128]⟩
abbrev S4096 : Shape := ⟨1, ![4096]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_

variable [Facts]

def fn {F : FTy → Type} [FloatOps F] (main_arg0 : FVec F S8192x128 .f32) (main_arg1 : FVec F S4096x128 .f32) (main_arg2 : IVec S4096 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  main_v8
-- ==== Kernel.lean ====
abbrev S8192x128 : Shape := ⟨2, ![8192, 128]⟩
abbrev S4096x128 : Shape := ⟨2, ![4096, 128]⟩
abbrev S4096 : Shape := ⟨1, ![4096]⟩
abbrev S256 : Shape := ⟨1, ![256]⟩
abbrev S1x256 : Shape := ⟨2, ![1, 256]⟩
abbrev S4096x1 : Shape := ⟨2, ![4096, 1]⟩
abbrev S4096x256 : Shape := ⟨2, ![4096, 256]⟩
abbrev S8192x256 : Shape := ⟨2, ![8192, 256]⟩
abbrev S256x128 : Shape := ⟨2, ![256, 128]⟩
abbrev S256x1 : Shape := ⟨2, ![256, 1]⟩

abbrev nBuf : Space → Nat
  | .hbm => 11
  | .vmem => 6
  | .smem => 0
  | _ => 0

abbrev bufTy : (tb : Table) → Fin (tcTables nBuf tb) → BufTy
  | .hbm, ⟨0, _⟩ => ⟨S8192x128, .f32⟩
  | .hbm, ⟨1, _⟩ => ⟨S4096x128, .f32⟩
  | .hbm, ⟨2, _⟩ => ⟨S4096, .i32⟩
  | .hbm, ⟨3, _⟩ => ⟨S256, .i32⟩
  | .hbm, ⟨4, _⟩ => ⟨S1x256, .i32⟩
  | .hbm, ⟨5, _⟩ => ⟨S4096x1, .i32⟩
  | .hbm, ⟨6, _⟩ => ⟨S4096x256, .i32⟩
  | .hbm, ⟨7, _⟩ => ⟨S4096x256, .i32⟩
  | .hbm, ⟨8, _⟩ => ⟨S4096x256, .i1⟩
  | .hbm, ⟨9, _⟩ => ⟨S4096x256, .bf16⟩
  | .hbm, ⟨10, _⟩ => ⟨S8192x256, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x256, .bf16⟩
  | .local _ .vmem, ⟨4, _⟩ => ⟨S4096x256, .f32⟩
  | .local _ .vmem, ⟨5, _⟩ => ⟨S4096x256, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S256_S1x256_1 : S256.BroadcastsInDim S1x256 (![1] : Fin 1 → Fin S1x256.rank)
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  bcast_S1x256_S4096x256_0_1 : S1x256.BroadcastsInDim S4096x256 (![0, 1] : Fin 2 → Fin S4096x256.rank)
  inb_S4096x128_S4096x128_0_0 : ∀ a, (![0, 0] : Fin 2 → Nat) a + S4096x128.size a ≤ S4096x128.size a
  h_S4096x128 : 0 < S4096x128.numel
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  bitsLt_bf16_f32 : FTy.bits .bf16 < FTy.bits .f32
  broadcasts_S256x1_S256x128 : S256x1.Broadcasts S256x128
  reduces_S256x128_S256 : S256x128.Reduces [1] S256
  shapeCasts_S256_S256x1 : S256.ShapeCasts S256x1
  transposes_S256x1_p1_0_S1x256 : S256x1.Transposes [1, 0] S1x256
  reduces_S4096x128_S4096 : S4096x128.Reduces [1] S4096
  shapeCasts_S4096_S4096x1 : S4096.ShapeCasts S4096x1
  broadcasts_S4096x1_S4096x256 : S4096x1.Broadcasts S4096x256
  broadcasts_S1x256_S4096x256 : S1x256.Broadcasts S4096x256
  dot_S4096x256_S4096x128_S256x128_0_0_1_1_n_n_wf : DotDims.WF S4096x256 S4096x128 S256x128 [0] [0] [1] [1] [] []
  dot_S4096x256_S4096x1_S256x1_0_0_1_1_n_n_wf : DotDims.WF S4096x256 S4096x1 S256x1 [0] [0] [1] [1] [] []
  dot_S4096x128_S256x128_S4096x256_1_1_0_0_n_n_wf : DotDims.WF S4096x128 S256x128 S4096x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S8192x128.size a
  hwx0_0 : ∀ i : grid0.Coords, EltTy.bits .f32 = 32 ∨ (Rect.block (s := S8192x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S4096x128.size a
  hwx0_1 : ∀ i : grid0.Coords, EltTy.bits .f32 = 32 ∨ (Rect.block (s := S4096x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S4096x256.size a
  hwx0_2 : ∀ i : grid0.Coords, EltTy.bits .bf16 = 32 ∨ (Rect.block (s := S4096x256) S4096x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S8192x256.size a
  hwx0_3 : ∀ i : grid0.Coords, EltTy.bits .f32 = 32 ∨ (Rect.block (s := S8192x256) S4096x256.size (cc0_transform_3 i) (hinb0_3 i)).WholeWords (EltTy.packing .f32)

variable [Facts₀]

def dot_S4096x256_S4096x128_S256x128_0_0_1_1_n_n : DotDims S4096x256 S4096x128 S256x128 where
  lhsContracting := [0]
  rhsContracting := [0]
  lhsNonContracting := [1]
  rhsNonContracting := [1]
  lhsBatch := []
  rhsBatch := []
  wf := dot_S4096x256_S4096x128_S256x128_0_0_1_1_n_n_wf
def dot_S4096x256_S4096x1_S256x1_0_0_1_1_n_n : DotDims S4096x256 S4096x1 S256x1 where
  lhsContracting := [0]
  rhsContracting := [0]
  lhsNonContracting := [1]
  rhsNonContracting := [1]
  lhsBatch := []
  rhsBatch := []
  wf := dot_S4096x256_S4096x1_S256x1_0_0_1_1_n_n_wf
def dot_S4096x128_S256x128_S4096x256_1_1_0_0_n_n : DotDims S4096x128 S256x128 S4096x256 where
  lhsContracting := [1]
  rhsContracting := [1]
  lhsNonContracting := [0]
  rhsNonContracting := [0]
  lhsBatch := []
  rhsBatch := []
  wf := dot_S4096x128_S256x128_S4096x256_1_1_0_0_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S4096x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S4096x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x128 : Shape := ⟨2, ![8192, 128]⟩
abbrev S4096x128 : Shape := ⟨2, ![4096, 128]⟩
abbrev S4096 : Shape := ⟨1, ![4096]⟩
abbrev S_ : Shape := ⟨0, ![]⟩
abbrev S256 : Shape := ⟨1, ![256]⟩
abbrev S4096x1 : Shape := ⟨2, ![4096, 1]⟩
abbrev S256x128 : Shape := ⟨2, ![256, 128]⟩
abbrev S256x1 : Shape := ⟨2, ![256, 1]⟩
abbrev S8192x1x128 : Shape := ⟨3, ![8192, 1, 128]⟩
abbrev S1x256x128 : Shape := ⟨3, ![1, 256, 128]⟩
abbrev S8192x256x128 : Shape := ⟨3, ![8192, 256, 128]⟩
abbrev S8192x256 : Shape := ⟨2, ![8192, 256]⟩

abbrev nBuf : Space → Nat
  | .hbm => 28
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S4096x128, .f32⟩
  | .hbm, ⟨2, _⟩ => ⟨S4096, .i32⟩
  | .hbm, ⟨3, _⟩ => ⟨S_, .f32⟩
  | .hbm, ⟨4, _⟩ => ⟨S4096, .f32⟩
  | .hbm, ⟨5, _⟩ => ⟨S_, .f32⟩
  | .hbm, ⟨6, _⟩ => ⟨S256, .f32⟩
  | .hbm, ⟨7, _⟩ => ⟨S4096x1, .i32⟩
  | .hbm, ⟨8, _⟩ => ⟨S256, .f32⟩
  | .hbm, ⟨9, _⟩ => ⟨S_, .f32⟩
  | .hbm, ⟨10, _⟩ => ⟨S256x128, .f32⟩
  | .hbm, ⟨11, _⟩ => ⟨S4096x1, .i32⟩
  | .hbm, ⟨12, _⟩ => ⟨S256x128, .f32⟩
  | .hbm, ⟨13, _⟩ => ⟨S_, .f32⟩
  | .hbm, ⟨14, _⟩ => ⟨S256, .f32⟩
  | .hbm, ⟨15, _⟩ => ⟨S256, .f32⟩
  | .hbm, ⟨16, _⟩ => ⟨S256x1, .f32⟩
  | .hbm, ⟨17, _⟩ => ⟨S256x128, .f32⟩
  | .hbm, ⟨18, _⟩ => ⟨S256x128, .f32⟩
  | .hbm, ⟨19, _⟩ => ⟨S8192x1x128, .f32⟩
  | .hbm, ⟨20, _⟩ => ⟨S1x256x128, .f32⟩
  | .hbm, ⟨21, _⟩ => ⟨S8192x256x128, .f32⟩
  | .hbm, ⟨22, _⟩ => ⟨S8192x256x128, .f32⟩
  | .hbm, ⟨23, _⟩ => ⟨S8192x256x128, .f32⟩
  | .hbm, ⟨24, _⟩ => ⟨S8192x256x128, .f32⟩
  | .hbm, ⟨25, _⟩ => ⟨S_, .f32⟩
  | .hbm, ⟨26, _⟩ => ⟨S8192x256, .f32⟩
  | .hbm, ⟨27, _⟩ => ⟨S8192x256, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S_S256 : S_.BroadcastsInDim S256 (![] : Fin 0 → Fin S256.rank)
  bcast_S4096_S4096x1_0 : S4096.BroadcastsInDim S4096x1 (![0] : Fin 1 → Fin S4096x1.rank)
  bcast_S_S256x128 : S_.BroadcastsInDim S256x128 (![] : Fin 0 → Fin S256x128.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S8192x128_S8192x1x128_0_2 : S8192x128.BroadcastsInDim S8192x1x128 (![0, 2] : Fin 2 → Fin S8192x1x128.rank)
  bcast_S256x128_S1x256x128_1_2 : S256x128.BroadcastsInDim S1x256x128 (![1, 2] : Fin 2 → Fin S1x256x128.rank)
  bcast_S8192x1x128_S8192x256x128_0_1_2 : S8192x1x128.BroadcastsInDim S8192x256x128 (![0, 1, 2] : Fin 3 → Fin S8192x256x128.rank)
  bcast_S1x256x128_S8192x256x128_0_1_2 : S1x256x128.BroadcastsInDim S8192x256x128 (![0, 1, 2] : Fin 3 → Fin S8192x256x128.rank)
  reducesTo_S8192x256x128_S8192x256_d2 : S8192x256x128.ReducesTo [2] S8192x256
  h_S_ : 0 < S_.numel
  scatter_S256_S4096x1_S4096_n_0_0_1_wf : ScatterDims.WF S256 S4096x1 S4096 [] [0] [0] 1
  scatter_S256x128_S4096x1_S4096x128_1_0_0_1_wf : ScatterDims.WF S256x128 S4096x1 S4096x128 [1] [0] [0] 1

variable [Facts₀]

def scatter_S256_S4096x1_S4096_n_0_0_1 : ScatterDims S256 S4096x1 S4096 where
  updateWindowDims := []
  insertedWindowDims := [0]
  scatterDimsToOperandDims := [0]
  indexVectorDim := 1
  wf := scatter_S256_S4096x1_S4096_n_0_0_1_wf
def scatter_S256x128_S4096x1_S4096x128_1_0_0_1 : ScatterDims S256x128 S4096x1 S4096x128 where
  updateWindowDims := [1]
  insertedWindowDims := [0]
  scatterDimsToOperandDims := [0]
  indexVectorDim := 1
  wf := scatter_S256x128_S4096x1_S4096x128_1_0_0_1_wf

class Facts : Prop extends Facts₀ where

variable [Facts]
-- ==== Proof.Spec.lean ====
/-
  The mathematics both programs compute, stated once over the argument arrays: queries `x` (8192 × 128), support
  rows `sup` (4096 × 128) and their integer class labels `lab` (4096), 256 classes.

  Support row `s` belongs to class `q` when its label is the word `q`; a label outside 0 … 255 belongs to no class.
  A class's prototype is the sum of its member rows divided by max (number of members, 1), coordinate by coordinate,
  and the result at (query p, class q) is minus the squared Euclidean distance from query `p` to prototype `q`.

  Two arrangements of that distance are named here: the direct one, Σ_d (x_d − c_d)², and the expanded one,
  max (Σ_d x_d² + Σ_d c_d² − 2 · Σ_d x_d c_d, 0), subtracted from zero. They agree when every entry is a real number
  (Proof/Expand.lean); on the extended reals alone they do not (an infinite entry makes the expansion ∞ − ∞).
-/
import Idealize.ShloMosaic.PureOps.Ideal
import Idealize.ShloMosaic.Lib.ValueIdx

noncomputable section

namespace Cert.ProtoDist

open Idealize.ShloMosaic Idealize.ShloMosaic.ValueIdx

/-- Queries: 8192 rows of 128 coordinates. -/
abbrev SQuery : Shape := ⟨2, ![8192, 128]⟩
/-- Support: 4096 rows of 128 coordinates. -/
abbrev SSupport : Shape := ⟨2, ![4096, 128]⟩
/-- One label per support row. -/
abbrev SLabel : Shape := ⟨1, ![4096]⟩
/-- The result: one entry per (query, class). -/
abbrev SResult : Shape := ⟨2, ![8192, 256]⟩

/-- `1` when support row `s` carries the label `q`, else `0`. -/
def member (lab : SLabel.Idx → BitVec 32) (s : Fin 4096) (q : Fin 256) : EReal :=
  if lab (ix1 s) = BitVec.ofNat 32 q.val then 1 else 0

/-- How many support rows carry the label `q`. -/
def count (lab : SLabel.Idx → BitVec 32) (q : Fin 256) : EReal :=
  ∑ s : Fin 4096, member lab s q

/-- Coordinate `d` of the sum of the support rows labelled `q`. -/
def classSum (sup : SSupport.Idx → EReal) (lab : SLabel.Idx → BitVec 32) (q : Fin 256) (d : Fin 128) : EReal :=
  ∑ s : Fin 4096, member lab s q * sup (ix2 s d)

/-- Coordinate `d` of class `q`'s prototype: the class sum over max (count, 1). -/
def proto (sup : SSupport.Idx → EReal) (lab : SLabel.Idx → BitVec 32) (q : Fin 256) (d : Fin 128) : EReal :=
  Ideal.div (classSum sup lab q d) (max (count lab q) 1)

/-- Minus the squared distance from query `i 0` to prototype `i 1`, summed coordinate by coordinate. -/
def negDist (x : SQuery.Idx → EReal) (sup : SSupport.Idx → EReal) (lab : SLabel.Idx → BitVec 32) : SResult.Idx → EReal :=
  fun i => -(∑ d : Fin 128, (x (ix2 (i 0) d) - proto sup lab (i 1) d) * (x (ix2 (i 0) d) - proto sup lab (i 1) d))

/-- The same distance by the expansion |x|² + |c|² − 2 x·c, kept from falling below zero, and subtracted from zero. -/
def negDistExpanded (x : SQuery.Idx → EReal) (sup : SSupport.Idx → EReal) (lab : SLabel.Idx → BitVec 32) :
    SResult.Idx → EReal :=
  fun i => 0 - max (((∑ d : Fin 128, x (ix2 (i 0) d) * x (ix2 (i 0) d))
      + (∑ d : Fin 128, proto sup lab (i 1) d * proto sup lab (i 1) d))
      - 2 * (∑ d : Fin 128, x (ix2 (i 0) d) * proto sup lab (i 1) d)) 0

/-! ## The float constants the two programs spell, as extended reals -/

/-- The f32 pattern of `1.0` denotes `1`. -/
theorem one_f32 : Ideal.ofBits .f32 0x3F800000#32 = 1 := by
  simp [Ideal.ofBits, Ideal.ieee, -EReal.coe_mul]; norm_num

/-- The bf16 pattern of `1.0` denotes `1`. -/
theorem one_bf16 : Ideal.ofBits .bf16 0x3F80#16 = 1 := by
  simp [Ideal.ofBits, Ideal.ieee, -EReal.coe_mul]; norm_num

/-- The f32 pattern of `2.0` denotes `2`. -/
theorem two_f32 : Ideal.ofBits .f32 0x40000000#32 = 2 := by
  simp [Ideal.ofBits, Ideal.ieee, -EReal.coe_mul]; norm_num
  norm_cast

/-- The f32 pattern of `+0.0` denotes `0`. -/
theorem zero_f32 : Ideal.ofBits .f32 0x00000000#32 = 0 := by
  simp [Ideal.ofBits, Ideal.ieee]

end Cert.ProtoDist

end
-- ==== Proof.RefValue.lean ====
/-
  The reference program's result is the direct arrangement of minus the squared distance to the class prototypes.

  The program builds two tables by accumulating scatters. An accumulating scatter adds to each element of its operand
  every update whose landing index is that element, where the landing index is, axis by axis, a start read off the
  label array as a SIGNED word plus the update's own window coordinate; an update that lands outside the table adds
  nothing. For the two scatters here the start on the class axis is the label of the update's support row and the
  window coordinate is the update's column (for the table of sums) or absent (for the table of counts). So an update
  from support row s lands on class q exactly when the label of s, read signed, is the number q, and for q below 256
  that says the label is the 32-bit word of q. A label that is negative or at least 256 lands nowhere, which is the
  specification's "belongs to no class".

  Hence, with m(s, q) = 1 when row s carries label q and 0 otherwise:
    * the count table at q is 0 + Σ_s m(s, q) · 1 = Σ_s m(s, q);
    * the sum table at (q, d) is 0 + Σ_s m(s, q) · sup(s, d);
    * the prototype table at (q, d) is the quotient of the second by max (the first, 1);
    * the result at (p, q) is −(0 + Σ_d (x(p, d) − c(q, d)) · (x(p, d) − c(q, d))).
  Only 0 + y = y, 1 · y = y, 0 · y = 0 and y · 1 = y are used, and they hold for every extended real, so no
  finiteness of the entries is asked.
-/
import proofs.«405989_j70617852281322_3_alg».proof.Proof.Gen.ReferenceIdeal.Read
import proofs.«405989_j70617852281322_3_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.ProtoDist Cert.ReferenceIdeal.Read

/-! ## Where an update lands -/

/-- An update lands at `i` exactly when start plus window coordinate is `i`'s coordinate on every axis. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split_ifs with h
  · rw [Option.some.injEq]
    constructor
    · rintro rfl a
      have := h a
      simp only
      omega
    · intro h2
      funext a
      apply Fin.ext
      simp only
      rw [h2 a]
      simp
  · constructor
    · intro h2; cases h2
    · intro h2
      exfalso
      apply h
      intro a
      rw [h2 a]
      exact ⟨by omega, by exact_mod_cast (i a).isLt⟩

/-- A 32-bit word read signed is the class number `q` (below 256) exactly when it is the word of `q`. -/
theorem toInt_eq_class_iff (w : BitVec 32) (q : Fin 256) : w.toInt = (q.val : Int) ↔ w = BitVec.ofNat 32 q.val := by
  have key : (BitVec.ofNat 32 q.val).toInt = (q.val : Int) := by
    have e := BitVec.toInt_eq_toNat_cond (BitVec.ofNat 32 q.val)
    have hm : (BitVec.ofNat 32 q.val).toNat = q.val := by
      rw [BitVec.toNat_ofNat]; exact Nat.mod_eq_of_lt (by have := q.isLt; omega)
    rw [hm] at e
    have := q.isLt
    rw [e, if_pos (by omega)]
  constructor
  · intro h
    apply BitVec.eq_of_toInt_eq
    rw [h, key]
  · rintro rfl
    exact key

/-! ## The two scatters of this program -/

/-- The dimension numbers of the scatter that builds the table of class sums (256 × 128 from 4096 × 128 updates). -/
abbrev d2 := scatter_S256x128_S4096x1_S4096x128_1_0_0_1
/-- The dimension numbers of the scatter that builds the table of class counts (256 from 4096 updates). -/
abbrev d1 := scatter_S256_S4096x1_S4096_n_0_0_1

/-- On the class axis the sum scatter's start is the label of the update's support row, read signed. -/
theorem d2_start0 (lab : S4096.Idx → BitVec 32) (j : S4096x128.Idx) :
    d2.start j (val_main_v5 (F := Ideal) lab) 0 = (lab (ix1 (j 0))).toInt := by
  show (val_main_v5 (F := Ideal) lab (d2.siIdx j ⟨0, by decide⟩)).toInt = _
  rw [val_main_v5_apply]
  refine congrArg (fun k => (lab k).toInt) (funext fun a => ?_)
  match a with
  | ⟨0, _⟩ => exact Fin.ext rfl

/-- On the class axis the count scatter's start is the label of the update's support row, read signed. -/
theorem d1_start0 (lab : S4096.Idx → BitVec 32) (j : S4096.Idx) :
    d1.start j (val_main_v2 (F := Ideal) lab) 0 = (lab (ix1 (j 0))).toInt := by
  show (val_main_v2 (F := Ideal) lab (d1.siIdx j ⟨0, by decide⟩)).toInt = _
  rw [val_main_v2_apply]
  refine congrArg (fun k => (lab k).toInt) (funext fun a => ?_)
  match a with
  | ⟨0, _⟩ => exact Fin.ext rfl

/-- Where a support element lands in the class-sum table. -/
theorem d2_lands_iff (lab : S4096.Idx → BitVec 32) (j : S4096x128.Idx) (q : Fin 256) (d : Fin 128) :
    d2.resultIdx? j (val_main_v5 (F := Ideal) lab) = some (ix2 q d) ↔ lab (ix1 (j 0)) = BitVec.ofNat 32 q.val ∧ j 1 = d := by
  rw [resultIdx?_eq_some_iff, ← toInt_eq_class_iff]
  constructor
  · intro h
    have h0 : d2.start j (val_main_v5 (F := Ideal) lab) 0 + ((0 : Nat) : Int) = (q.val : Int) := h 0
    have h1 : (0 : Int) + ((j 1).val : Int) = (d.val : Int) := h 1
    rw [d2_start0] at h0
    refine ⟨by simpa using h0, Fin.ext ?_⟩
    omega
  · rintro ⟨h0, h1⟩ a
    match a with
    | ⟨0, _⟩ => show d2.start j _ 0 + ((0 : Nat) : Int) = (q.val : Int); rw [d2_start0, h0]; simp
    | ⟨1, _⟩ => show (0 : Int) + ((j 1).val : Int) = (d.val : Int); rw [h1]; simp

/-- Where a unit update lands in the count table. -/
theorem d1_lands_iff (lab : S4096.Idx → BitVec 32) (j : S4096.Idx) (q : Fin 256) :
    d1.resultIdx? j (val_main_v2 (F := Ideal) lab) = some (ix1 q) ↔ lab (ix1 (j 0)) = BitVec.ofNat 32 q.val := by
  rw [resultIdx?_eq_some_iff, ← toInt_eq_class_iff]
  constructor
  · intro h
    have h0 : d1.start j (val_main_v2 (F := Ideal) lab) 0 + ((0 : Nat) : Int) = (q.val : Int) := h 0
    rw [d1_start0] at h0
    simpa using h0
  · intro h0 a
    match a with
    | ⟨0, _⟩ => show d1.start j _ 0 + ((0 : Nat) : Int) = (q.val : Int); rw [d1_start0, h0]; simp

/-- A rank-1 index set is its coordinate's range. -/
def idxEquiv1 : Fin 4096 ≃ S4096.Idx where
  toFun s := ix1 s
  invFun j := j 0
  left_inv _ := rfl
  right_inv j := (eq_ix1 j).symm

/-- The class-sum scatter read at (class `q`, coordinate `d`). -/
theorem scatter_rows_apply (x : S256x128.Idx → EReal) (lab : S4096.Idx → BitVec 32) (upd : S4096x128.Idx → EReal)
    (q : Fin 256) (d : Fin 128) :
    Ideal.hostScatterAdd d2 x (val_main_v5 (F := Ideal) lab) upd (ix2 q d)
      = x (ix2 q d) + ∑ s : Fin 4096, member lab s q * upd (ix2 s d) := by
  unfold Ideal.hostScatterAdd
  refine congrArg (x (ix2 q d) + ·) ?_
  rw [Finset.sum_filter, sum_idx2]
  refine Finset.sum_congr rfl fun s _ => ?_
  have hh : ∀ b : Fin 128, (if d2.resultIdx? (ix2 s b) (val_main_v5 (F := Ideal) lab) = some (ix2 q d) then upd (ix2 s b) else 0) = (if lab (ix1 s) = BitVec.ofNat 32 q.val ∧ b = d then upd (ix2 s b) else 0) :=
    fun b => if_congr (d2_lands_iff lab (ix2 s b) q d) rfl rfl
  rw [Finset.sum_congr rfl fun b _ => hh b]
  unfold member
  by_cases hs : lab (ix1 s) = BitVec.ofNat 32 q.val
  · simp only [hs, true_and, if_true, one_mul]
    exact Finset.sum_ite_eq' Finset.univ d (fun b => upd (ix2 s b)) |>.trans (by simp)
  · simp [hs]

/-- The count scatter read at class `q`. -/
theorem scatter_ones_apply (x : S256.Idx → EReal) (lab : S4096.Idx → BitVec 32) (upd : S4096.Idx → EReal) (q : Fin 256) :
    Ideal.hostScatterAdd d1 x (val_main_v2 (F := Ideal) lab) upd (ix1 q)
      = x (ix1 q) + ∑ s : Fin 4096, member lab s q * upd (ix1 s) := by
  unfold Ideal.hostScatterAdd
  refine congrArg (x (ix1 q) + ·) ?_
  rw [Finset.sum_filter, ← Equiv.sum_comp idxEquiv1]
  refine Finset.sum_congr rfl fun s _ => ?_
  unfold member
  refine (if_congr (d1_lands_iff lab (ix1 s) q) rfl rfl).trans ?_
  show (if lab (ix1 s) = BitVec.ofNat 32 q.val then upd (ix1 s) else 0) = _
  by_cases hs : lab (ix1 s) = BitVec.ofNat 32 q.val
  · rw [if_pos hs, if_pos hs, one_mul]
  · rw [if_neg hs, if_neg hs, zero_mul]

/-! ## The stages the scatters feed, and the result -/

/-- The class-sum table at (class `q`, coordinate `d`): the scatter starts from zero. -/
theorem v6_apply (x1 : (⟨S4096x128, .f32⟩ : BufTy).Contents (Elt Ideal)) (x2 : (⟨S4096, .i32⟩ : BufTy).Contents (Elt Ideal))
    (q : Fin 256) (d : Fin 128) :
    val_main_v6 (F := Ideal) x1 x2 (ix2 q d) = classSum x1 x2 q d := by
  show Ideal.hostScatterAdd d2 (val_main_v4 (F := Ideal)) (val_main_v5 (F := Ideal) x2) x1 (ix2 q d) = _
  rw [scatter_rows_apply, val_main_v4_apply, val_main_cst_1_apply, Ideal.ofBits_def, zero_f32, zero_add]
  rfl

/-- The count table at class `q`: the scatter starts from zero and every update is one. -/
theorem v3_apply (x2 : (⟨S4096, .i32⟩ : BufTy).Contents (Elt Ideal)) (q : Fin 256) :
    val_main_v3 (F := Ideal) x2 (ix1 q) = ProtoDist.count x2 q := by
  show Ideal.hostScatterAdd d1 (val_main_v1 (F := Ideal)) (val_main_v2 (F := Ideal) x2) (val_main_v0 (F := Ideal)) (ix1 q) = _
  rw [scatter_ones_apply, val_main_v1_apply, val_main_cst_0_apply, Ideal.ofBits_def, zero_f32, zero_add]
  unfold ProtoDist.count
  refine Finset.sum_congr rfl fun s _ => ?_
  rw [val_main_v0_apply, val_main_cst_apply, Ideal.ofBits_def, one_f32, mul_one]

/-- The prototype table at (class `q`, coordinate `d`). -/
theorem v11_apply (x1 : (⟨S4096x128, .f32⟩ : BufTy).Contents (Elt Ideal)) (x2 : (⟨S4096, .i32⟩ : BufTy).Contents (Elt Ideal))
    (q : Fin 256) (d : Fin 128) :
    val_main_v11 (F := Ideal) x1 x2 (ix2 q d) = proto x1 x2 q d := by
  have e3 : idx_main_v9 (idx_main_v10 (ix2 q d)) = ix1 q := by
    funext a; match a with | ⟨0, _⟩ => rfl
  rw [val_main_v11_apply, val_main_v10_apply, val_main_v9_apply, val_main_v8_apply, v6_apply, val_main_v7_apply,
    val_main_cst_2_apply, e3, v3_apply, Ideal.ofBits_def, one_f32]
  rfl

/-- The reference program's result is minus the squared distance to the prototypes, summed coordinate by coordinate. -/
theorem ref_eq_negDist (x0 : (⟨S8192x128, .f32⟩ : BufTy).Contents (Elt Ideal)) (x1 : (⟨S4096x128, .f32⟩ : BufTy).Contents (Elt Ideal))
    (x2 : (⟨S4096, .i32⟩ : BufTy).Contents (Elt Ideal)) :
    Cert.ReferenceIdeal.Read.val_main_v19 (F := Ideal) x0 x1 x2 = Cert.ProtoDist.negDist x0 x1 x2 := by
  funext i
  obtain ⟨p, q, rfl⟩ : ∃ (p : Fin 8192) (q : Fin 256), i = ix2 p q := ⟨i 0, i 1, eq_ix2 i⟩
  rw [val_main_v19_apply, val_main_v18_apply, val_main_cst_3_apply, Ideal.ofBits_def, zero_f32, zero_add]
  show -(∑ k : Fin 128, _) = -(∑ d : Fin 128, _)
  refine congrArg Neg.neg (Finset.sum_congr rfl fun k _ => ?_)
  have e1 : idx_main_v12 (idx_main_v14 (idx_main_v18 (ix2 p q) k)) = ix2 p k := by
    funext a; match a with | ⟨0, _⟩ => rfl | ⟨1, _⟩ => rfl
  have e2 : idx_main_v13 (idx_main_v15 (idx_main_v18 (ix2 p q) k)) = ix2 q k := by
    funext a; match a with | ⟨0, _⟩ => rfl | ⟨1, _⟩ => rfl
  rw [val_main_v17_apply, val_main_v16_apply, val_main_v14_apply, val_main_v12_apply, val_main_v15_apply,
    val_main_v13_apply, e1, e2, v11_apply]
  rfl

end Cert.ReferenceIdeal.RefValue
-- ==== Proof.Contract.lean ====
/-
  The kernel's three matrix products, each read at one output entry as a plain sum over its contracted axis.

  Two of them contract the ROW axis of both operands (the 4096 support rows): entry (q, d) of the first is
  Σ_s A[s, q] · B[s, d], and entry (q, 0) of the second is Σ_s A[s, q] · B[s, 0]. The third contracts the
  COORDINATE axis of both operands (the 128 features): entry (p, q) is Σ_d A[p, d] · B[q, d]. Each accumulates
  into a zero block, so at the exact values the accumulator drops out.
-/
import proofs.«405989_j70617852281322_3_alg».proof.Proof.Gen.KernelIdeal
import Idealize.ShloMosaic.Lib.ValueIdx
import Idealize.ShloMosaic.PureOps.Ideal.Laws

noncomputable section

namespace Cert.KernelIdeal.Contract

open Cert.KernelIdeal Cert.KernelIdeal.Gen Idealize.ShloMosaic Idealize.ShloMosaic.ValueIdx

/-! ## Rows of the membership block against rows of the support block -/

theorem lhs_rows_0 (i : S256x128.Idx) (k : dot_S4096x256_S4096x128_S256x128_0_0_1_1_n_n.contr.Idx) :
    (dot_S4096x256_S4096x128_S256x128_0_0_1_1_n_n.lhsIdx i k 0).val = (k ⟨0, by decide⟩).val :=
  dot_S4096x256_S4096x128_S256x128_0_0_1_1_n_n.lhsIdx_val_of_single rfl i k

theorem lhs_rows_1 (i : S256x128.Idx) (k : dot_S4096x256_S4096x128_S256x128_0_0_1_1_n_n.contr.Idx) :
    (dot_S4096x256_S4096x128_S256x128_0_0_1_1_n_n.lhsIdx i k 1).val = (i 0).val := by
  unfold DotDims.lhsIdx
  rw [dif_neg (show ¬(1 : Fin S4096x256.rank) ∈ dot_S4096x256_S4096x128_S256x128_0_0_1_1_n_n.lhsBatch by decide),
    dif_pos (show (1 : Fin S4096x256.rank) ∈ dot_S4096x256_S4096x128_S256x128_0_0_1_1_n_n.lhsNonContracting by decide)]
  rfl

theorem rhs_rows_0 (i : S256x128.Idx) (k : dot_S4096x256_S4096x128_S256x128_0_0_1_1_n_n.contr.Idx) :
    (dot_S4096x256_S4096x128_S256x128_0_0_1_1_n_n.rhsIdx i k 0).val = (k ⟨0, by decide⟩).val :=
  dot_S4096x256_S4096x128_S256x128_0_0_1_1_n_n.rhsIdx_val_of_single rfl i k

theorem rhs_rows_1 (i : S256x128.Idx) (k : dot_S4096x256_S4096x128_S256x128_0_0_1_1_n_n.contr.Idx) :
    (dot_S4096x256_S4096x128_S256x128_0_0_1_1_n_n.rhsIdx i k 1).val = (i 1).val := by
  unfold DotDims.rhsIdx
  rw [dif_neg (show ¬(1 : Fin S4096x128.rank) ∈ dot_S4096x256_S4096x128_S256x128_0_0_1_1_n_n.rhsBatch by decide),
    dif_pos (show (1 : Fin S4096x128.rank) ∈ dot_S4096x256_S4096x128_S256x128_0_0_1_1_n_n.rhsNonContracting by decide)]
  rfl

/-- Entry (q, d) of Aᵀ·B over the 4096 rows. -/
theorem rows_matmul (A : FVec Ideal S4096x256 .bf16) (B : FVec Ideal S4096x128 .bf16) (q : Fin 256) (d : Fin 128) :
    matmul dot_S4096x256_S4096x128_S256x128_0_0_1_1_n_n none A B (constant S256x128 .f32 0x00000000#32) (ix2 q d)
      = ∑ s : Fin 4096, A (ix2 s q) * B (ix2 s d) := by
  simp only [matmul]
  rw [Ideal.matmul_constant_zero_apply,
    ← Equiv.sum_comp (contrEquiv1 dot_S4096x256_S4096x128_S256x128_0_0_1_1_n_n 4096 rfl rfl).symm]
  refine Finset.sum_congr rfl fun k _ => ?_
  have hk := contrEquiv1_symm_val dot_S4096x256_S4096x128_S256x128_0_0_1_1_n_n 4096 rfl rfl k
  have el : dot_S4096x256_S4096x128_S256x128_0_0_1_1_n_n.lhsIdx (ix2 q d)
      ((contrEquiv1 dot_S4096x256_S4096x128_S256x128_0_0_1_1_n_n 4096 rfl rfl).symm k) = ix2 k q :=
    funext fun a => Fin.ext (by
      match a with
      | ⟨0, _⟩ => exact (lhs_rows_0 _ _).trans hk
      | ⟨1, _⟩ => exact lhs_rows_1 _ _)
  have er : dot_S4096x256_S4096x128_S256x128_0_0_1_1_n_n.rhsIdx (ix2 q d)
      ((contrEquiv1 dot_S4096x256_S4096x128_S256x128_0_0_1_1_n_n 4096 rfl rfl).symm k) = ix2 k d :=
    funext fun a => Fin.ext (by
      match a with
      | ⟨0, _⟩ => exact (rhs_rows_0 _ _).trans hk
      | ⟨1, _⟩ => exact rhs_rows_1 _ _)
  rw [el, er]

/-! ## Rows of the membership block against a column of ones -/

theorem lhs_ones_0 (i : S256x1.Idx) (k : dot_S4096x256_S4096x1_S256x1_0_0_1_1_n_n.contr.Idx) :
    (dot_S4096x256_S4096x1_S256x1_0_0_1_1_n_n.lhsIdx i k 0).val = (k ⟨0, by decide⟩).val :=
  dot_S4096x256_S4096x1_S256x1_0_0_1_1_n_n.lhsIdx_val_of_single rfl i k

theorem lhs_ones_1 (i : S256x1.Idx) (k : dot_S4096x256_S4096x1_S256x1_0_0_1_1_n_n.contr.Idx) :
    (dot_S4096x256_S4096x1_S256x1_0_0_1_1_n_n.lhsIdx i k 1).val = (i 0).val := by
  unfold DotDims.lhsIdx
  rw [dif_neg (show ¬(1 : Fin S4096x256.rank) ∈ dot_S4096x256_S4096x1_S256x1_0_0_1_1_n_n.lhsBatch by decide),
    dif_pos (show (1 : Fin S4096x256.rank) ∈ dot_S4096x256_S4096x1_S256x1_0_0_1_1_n_n.lhsNonContracting by decide)]
  rfl

theorem rhs_ones_0 (i : S256x1.Idx) (k : dot_S4096x256_S4096x1_S256x1_0_0_1_1_n_n.contr.Idx) :
    (dot_S4096x256_S4096x1_S256x1_0_0_1_1_n_n.rhsIdx i k 0).val = (k ⟨0, by decide⟩).val :=
  dot_S4096x256_S4096x1_S256x1_0_0_1_1_n_n.rhsIdx_val_of_single rfl i k

theorem rhs_ones_1 (i : S256x1.Idx) (k : dot_S4096x256_S4096x1_S256x1_0_0_1_1_n_n.contr.Idx) :
    (dot_S4096x256_S4096x1_S256x1_0_0_1_1_n_n.rhsIdx i k 1).val = (i 1).val := by
  unfold DotDims.rhsIdx
  rw [dif_neg (show ¬(1 : Fin S4096x1.rank) ∈ dot_S4096x256_S4096x1_S256x1_0_0_1_1_n_n.rhsBatch by decide),
    dif_pos (show (1 : Fin S4096x1.rank) ∈ dot_S4096x256_S4096x1_S256x1_0_0_1_1_n_n.rhsNonContracting by decide)]
  rfl

/-- Entry (q, 0) of Aᵀ·B for a one-column B over the 4096 rows. -/
theorem ones_matmul (A : FVec Ideal S4096x256 .bf16) (B : FVec Ideal S4096x1 .bf16) (q : Fin 256) :
    matmul dot_S4096x256_S4096x1_S256x1_0_0_1_1_n_n none A B (constant S256x1 .f32 0x00000000#32) (ix2 q (0 : Fin 1))
      = ∑ s : Fin 4096, A (ix2 s q) * B (ix2 s (0 : Fin 1)) := by
  simp only [matmul]
  rw [Ideal.matmul_constant_zero_apply,
    ← Equiv.sum_comp (contrEquiv1 dot_S4096x256_S4096x1_S256x1_0_0_1_1_n_n 4096 rfl rfl).symm]
  refine Finset.sum_congr rfl fun k _ => ?_
  have hk := contrEquiv1_symm_val dot_S4096x256_S4096x1_S256x1_0_0_1_1_n_n 4096 rfl rfl k
  have el : dot_S4096x256_S4096x1_S256x1_0_0_1_1_n_n.lhsIdx (ix2 q (0 : Fin 1))
      ((contrEquiv1 dot_S4096x256_S4096x1_S256x1_0_0_1_1_n_n 4096 rfl rfl).symm k) = ix2 k q :=
    funext fun a => Fin.ext (by
      match a with
      | ⟨0, _⟩ => exact (lhs_ones_0 _ _).trans hk
      | ⟨1, _⟩ => exact lhs_ones_1 _ _)
  have er : dot_S4096x256_S4096x1_S256x1_0_0_1_1_n_n.rhsIdx (ix2 q (0 : Fin 1))
      ((contrEquiv1 dot_S4096x256_S4096x1_S256x1_0_0_1_1_n_n 4096 rfl rfl).symm k) = ix2 k (0 : Fin 1) :=
    funext fun a => Fin.ext (by
      match a with
      | ⟨0, _⟩ => exact (rhs_ones_0 _ _).trans hk
      | ⟨1, _⟩ => exact rhs_ones_1 _ _)
  rw [el, er]

/-! ## Query rows against prototype rows -/

theorem lhs_cross_0 (i : S4096x256.Idx) (k : dot_S4096x128_S256x128_S4096x256_1_1_0_0_n_n.contr.Idx) :
    (dot_S4096x128_S256x128_S4096x256_1_1_0_0_n_n.lhsIdx i k 0).val = (i 0).val := by
  unfold DotDims.lhsIdx
  rw [dif_neg (show ¬(0 : Fin S4096x128.rank) ∈ dot_S4096x128_S256x128_S4096x256_1_1_0_0_n_n.lhsBatch by decide),
    dif_pos (show (0 : Fin S4096x128.rank) ∈ dot_S4096x128_S256x128_S4096x256_1_1_0_0_n_n.lhsNonContracting by decide)]
  rfl

theorem lhs_cross_1 (i : S4096x256.Idx) (k : dot_S4096x128_S256x128_S4096x256_1_1_0_0_n_n.contr.Idx) :
    (dot_S4096x128_S256x128_S4096x256_1_1_0_0_n_n.lhsIdx i k 1).val = (k ⟨0, by decide⟩).val :=
  dot_S4096x128_S256x128_S4096x256_1_1_0_0_n_n.lhsIdx_val_of_single rfl i k

theorem rhs_cross_0 (i : S4096x256.Idx) (k : dot_S4096x128_S256x128_S4096x256_1_1_0_0_n_n.contr.Idx) :
    (dot_S4096x128_S256x128_S4096x256_1_1_0_0_n_n.rhsIdx i k 0).val = (i 1).val := by
  unfold DotDims.rhsIdx
  rw [dif_neg (show ¬(0 : Fin S256x128.rank) ∈ dot_S4096x128_S256x128_S4096x256_1_1_0_0_n_n.rhsBatch by decide),
    dif_pos (show (0 : Fin S256x128.rank) ∈ dot_S4096x128_S256x128_S4096x256_1_1_0_0_n_n.rhsNonContracting by decide)]
  rfl

theorem rhs_cross_1 (i : S4096x256.Idx) (k : dot_S4096x128_S256x128_S4096x256_1_1_0_0_n_n.contr.Idx) :
    (dot_S4096x128_S256x128_S4096x256_1_1_0_0_n_n.rhsIdx i k 1).val = (k ⟨0, by decide⟩).val :=
  dot_S4096x128_S256x128_S4096x256_1_1_0_0_n_n.rhsIdx_val_of_single rfl i k

/-- Entry (p, q) of A·Bᵀ over the 128 coordinates. -/
theorem cross_matmul (A : FVec Ideal S4096x128 .bf16) (B : FVec Ideal S256x128 .bf16) (p : Fin 4096) (q : Fin 256) :
    matmul dot_S4096x128_S256x128_S4096x256_1_1_0_0_n_n none A B (constant S4096x256 .f32 0x00000000#32) (ix2 p q)
      = ∑ d : Fin 128, A (ix2 p d) * B (ix2 q d) := by
  simp only [matmul]
  rw [Ideal.matmul_constant_zero_apply,
    ← Equiv.sum_comp (contrEquiv1 dot_S4096x128_S256x128_S4096x256_1_1_0_0_n_n 128 rfl rfl).symm]
  refine Finset.sum_congr rfl fun k _ => ?_
  have hk := contrEquiv1_symm_val dot_S4096x128_S256x128_S4096x256_1_1_0_0_n_n 128 rfl rfl k
  have el : dot_S4096x128_S256x128_S4096x256_1_1_0_0_n_n.lhsIdx (ix2 p q)
      ((contrEquiv1 dot_S4096x128_S256x128_S4096x256_1_1_0_0_n_n 128 rfl rfl).symm k) = ix2 p k :=
    funext fun a => Fin.ext (by
      match a with
      | ⟨0, _⟩ => exact lhs_cross_0 _ _
      | ⟨1, _⟩ => exact (lhs_cross_1 _ _).trans hk)
  have er : dot_S4096x128_S256x128_S4096x256_1_1_0_0_n_n.rhsIdx (ix2 p q)
      ((contrEquiv1 dot_S4096x128_S256x128_S4096x256_1_1_0_0_n_n 128 rfl rfl).symm k) = ix2 q k :=
    funext fun a => Fin.ext (by
      match a with
      | ⟨0, _⟩ => exact rhs_cross_0 _ _
      | ⟨1, _⟩ => exact (rhs_cross_1 _ _).trans hk)
  rw [el, er]

end Cert.KernelIdeal.Contract

end
-- ==== Proof.ColumnForms.lean ====
/-
  Small reading lemmas for the shapes a row sum kept as a column goes through: a vector of length a viewed as an
  a × 1 column, a column spread over b columns, and the sum of each row of an a × b block. Each says which entry of
  the operand an entry of the result is.
-/
import Idealize.ShloMosaic.Lib.Pipeline.Value
import Idealize.ShloMosaic.Lib.ValueIdx
import Idealize.ShloMosaic.Lib.ValueLayout
import Idealize.ShloMosaic.PureOps.Ideal.Laws

noncomputable section

namespace Cert.ColumnForms

open Idealize.ShloMosaic Idealize.ShloMosaic.ValueIdx

variable {α : Type}

/-- A length-a vector viewed as an a × 1 column reads, at (p, 0), the vector at p. -/
theorem shapeCast_a_a1_apply {a : ℕ} (x : (⟨1, ![a]⟩ : Shape).Idx → α)
    (h : (⟨1, ![a]⟩ : Shape).ShapeCasts ⟨2, ![a, 1]⟩) (p : Fin a) :
    shapeCast ⟨2, ![a, 1]⟩ x h (ix2 p (0 : Fin 1)) = x (ix1 p) := by
  refine shapeCast_apply x h _ _ ?_
  rw [Shape.rowMajor_val_one, Shape.rowMajor_val_two]
  show p.val = p.val * 1 + 0
  omega

/-- An a × 1 column spread over b columns reads, at (p, c), the column at (p, 0). -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of each row of an a × b block of exact values reads, at p, the sum over the b coordinates of row p. -/
theorem rowSum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec (FTy.bits .f32)) = FKind.add.neutral .f32 hφ) (p : Fin a) :
    multiReduction .add [1] ⟨1, ![a]⟩ v 0x00000000#32 h hφ hacc (ix1 p) = ∑ d : Fin b, v (ix2 p d) := by
  refine (Ideal.multiReduction_add_single v _ h hφ hacc (ix1 p)).trans ?_
  refine Finset.sum_congr rfl fun k _ => congrArg v (funext fun ax => Fin.ext ?_)
  match ax with
  | ⟨0, _⟩ => rfl
  | ⟨1, _⟩ => rfl

end Cert.ColumnForms

end
-- ==== Proof.Payload.lean ====
/-
  What the kernel body stores at entry (p, q) of its output block, as a formula in the three blocks it loads: the
  support block, the membership block (one column per class) and the query block.

  From the blocks the body forms, for class q and coordinate d, the prototype coordinate
      c(q, d) = (Σ_s hot[s, q] · sup[s, d]) / max (Σ_s hot[s, q] · 1, 1),
  then |x_p|² = Σ_d x[p, d]², |c_q|² = Σ_d c(q, d)², the cross term Σ_d x[p, d] · c(q, d), and stores
      0 − max (|x_p|² + |c_q|² − 2 · cross, 0).
  Changes of float format are the identity at the exact values, so they do not appear.
-/
import proofs.«405989_j70617852281322_3_alg».proof.Proof.Gen.KernelIdeal.Skeleton
import proofs.«405989_j70617852281322_3_alg».proof.Proof.Contract
import proofs.«405989_j70617852281322_3_alg».proof.Proof.ColumnForms

noncomputable section

namespace Cert.KernelIdeal.Payload

open Cert.KernelIdeal Cert.KernelIdeal.Gen Idealize.ShloMosaic Idealize.ShloMosaic.ValueIdx
open Cert.ColumnForms Cert.KernelIdeal.Contract

/-- Coordinate d of class q's prototype, from the support block and the membership block. -/
def blockProto (sup : FVec Ideal S4096x128 .f32) (hot : FVec Ideal S4096x256 .bf16) (q : Fin 256) (d : Fin 128) : EReal :=
  Ideal.div (∑ s : Fin 4096, hot (ix2 s q) * sup (ix2 s d))
    (max (∑ s : Fin 4096, hot (ix2 s q) * Ideal.ofBits .bf16 0x3F80#16) (Ideal.ofBits .f32 0x3F800000#32))

/-- The 256 × 1 column of squared prototype norms laid as a 1 × 256 row reads, at (0, q), the column at (q, 0). -/
theorem transpose_col (v : FVec Ideal S256x1 .f32) (h : S256x1.Transposes [1, 0] S1x256) (q : Fin 256) :
    transpose S1x256 [1, 0] v h (ix2 (0 : Fin 1) q) = v (ix2 q (0 : Fin 1)) :=
  ValueIdx.transpose_ix2_apply v h 0 q

/-- The squared norm of query row p: the sum over its 128 coordinates. -/
theorem rowSum_query (v : FVec Ideal S4096x128 .f32) (h : S4096x128.Reduces [1] S4096) (hφ : FKind.Formats .f32)
    (hacc : (0x00000000#32 : BitVec (FTy.bits .f32)) = FKind.add.neutral .f32 hφ) (p : Fin 4096) :
    multiReduction .add [1] S4096 v 0x00000000#32 h hφ hacc (ix1 p) = ∑ d : Fin 128, v (ix2 p d) :=
  rowSum_apply v h hφ hacc p

/-- The squared norm of prototype q: the sum over its 128 coordinates. -/
theorem rowSum_proto (v : FVec Ideal S256x128 .f32) (h : S256x128.Reduces [1] S256) (hφ : FKind.Formats .f32)
    (hacc : (0x00000000#32 : BitVec (FTy.bits .f32)) = FKind.add.neutral .f32 hφ) (q : Fin 256) :
    multiReduction .add [1] S256 v 0x00000000#32 h hφ hacc (ix1 q) = ∑ d : Fin 128, v (ix2 q d) :=
  rowSum_apply v h hφ hacc q

/-- The stored value at (p, q). -/
theorem payload_apply (sup : FVec Ideal S4096x128 .f32) (hot : FVec Ideal S4096x256 .bf16) (xb : FVec Ideal S4096x128 .f32)
    (p : Fin 4096) (q : Fin 256) :
    k0_pay1 (F := Ideal) sup hot xb (ix2 p q)
      = Ideal.ofBits .f32 0x00000000#32
        - max (((∑ d : Fin 128, xb (ix2 p d) * xb (ix2 p d))
              + (∑ d : Fin 128, blockProto sup hot q d * blockProto sup hot q d))
            - Ideal.ofBits .f32 0x40000000#32 * (∑ d : Fin 128, xb (ix2 p d) * blockProto sup hot q d))
          (Ideal.ofBits .f32 0x00000000#32) := by
  unfold k0_pay1
  simp only [subf_apply, maximumf_apply, addf_apply, mulf_apply, divf_apply, broadcast_apply, truncf_apply,
    broadcastTo_a1_ab_apply, broadcastTo_1b_ab_apply, shapeCast_a_a1_apply,
    rows_matmul, ones_matmul, cross_matmul, shapeCast_self, Ideal.ofBits_def, blockProto]
  congr 1
  congr 1
  congr 1
  congr 1
  · exact rowSum_query _ _ _ _ p
  · refine (transpose_col _ _ q).trans ((shapeCast_a_a1_apply _ _ q).trans ((rowSum_proto _ _ _ _ q).trans ?_))
    refine Finset.sum_congr rfl fun d _ => ?_
    simp only [mulf_apply, divf_apply, maximumf_apply, broadcast_apply, truncf_apply, broadcastTo_a1_ab_apply,
      rows_matmul, ones_matmul]

end Cert.KernelIdeal.Payload

end
-- ==== Proof.Whole.lean ====
/-
  From what each grid point stores to the whole output array.

  The output (8192 × 256) is written in two row blocks of 4096 queries; point t writes block t. The query block at
  point t is rows 4096·t … 4096·t + 4095 of the query array, while the support array and the membership array are
  each one block, the same at both points. So entry (p, q) of what point t writes is the stored formula of
  Proof/Payload.lean at the query row 4096·t + p and class q: every point writes the restriction of ONE function of
  the three arrays, the two blocks cover the array, and the array ends as that function.
-/
import proofs.«405989_j70617852281322_3_alg».proof.Proof.Gen.KernelIdeal.Value
import proofs.«405989_j70617852281322_3_alg».proof.Proof.Payload

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)
open Cert.KernelIdeal.Payload

/-- The output array as one function of the query array, the support array and the membership array: at (r, q),
    zero minus max (|x_r|² + |c_q|² − 2 x_r·c_q, 0), the prototype c_q formed from the support and membership arrays. -/
def wholeResult (x : FVec Ideal S8192x128 .f32) (sup : FVec Ideal S4096x128 .f32) (hot : FVec Ideal S4096x256 .bf16) :
    FVec Ideal S8192x256 .f32 :=
  fun i => Ideal.ofBits .f32 0x00000000#32
    - max (((∑ d : Fin 128, x (ix2 (i 0) d) * x (ix2 (i 0) d))
          + (∑ d : Fin 128, blockProto sup hot (i 1) d * blockProto sup hot (i 1) d))
        - Ideal.ofBits .f32 0x40000000#32 * (∑ d : Fin 128, x (ix2 (i 0) d) * blockProto sup hot (i 1) d))
      (Ideal.ofBits .f32 0x00000000#32)

/-- What the body stores at entry j of its block is the whole-array function at the array index i that entry lands on,
    once the query block's row (j 0) is the query array's row (i 0), the other two blocks are the whole arrays, and
    the class coordinate is kept. -/
theorem stored_eq (x : FVec Ideal S8192x128 .f32) (sup : FVec Ideal S4096x128 .f32) (hot : FVec Ideal S4096x256 .bf16)
    (sb : FVec Ideal S4096x128 .f32) (hb : FVec Ideal S4096x256 .bf16) (xb : FVec Ideal S4096x128 .f32)
    (j : S4096x256.Idx) (i : S8192x256.Idx)
    (hs : sb = sup) (hh : hb = hot) (hx : ∀ d : Fin 128, xb (ix2 (j 0) d) = x (ix2 (i 0) d)) (hq : j 1 = i 1) :
    k0_pay1 (F := Ideal) sb hb xb j = wholeResult x sup hot i := by
  subst hs hh
  obtain ⟨p, q, rfl⟩ : ∃ (p : Fin 4096) (q : Fin 256), j = ix2 p q := ⟨j 0, j 1, eq_ix2 j⟩
  have hx' : ∀ d : Fin 128, xb (ix2 p d) = x (ix2 (i 0) d) := hx
  have hq' : i 1 = q := hq.symm
  refine (payload_apply sb hb xb p q).trans ?_
  unfold wholeResult
  simp only [hx', hq']

theorem zero_offsets : (![0, 0] : Fin 2 → Nat) = fun _ => 0 := funext fun a => by fin_cases a <;> rfl

/-- The printed index maps over the two grid points: the query window moves with the output window along the rows,
    every other block index is zero, and the output's row-block index is 0 or 1. -/
theorem index_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 1 ∧ win0_3.index t (1 : Fin 2) = 0 :=
  (by decide +kernel : ∀ t : Fin grid0.N, _)

/-- Each of the two row blocks is some point's. -/
theorem index_onto : ∀ b : Fin 2, ∃ t : Fin cfg0.N, win0_3.index t = ![b.val, 0] :=
  (by decide +kernel : ∀ b : Fin 2, ∃ t : Fin grid0.N, win0_3.index t = ![b.val, 0])

variable (m : (ℓ : Loc nD τ sig) → Buf (Elt Ideal) ℓ) (ρ : Dev nD → PrngReg)

/-- What point t writes back is block t of the whole-array function of the arrays as the kernel finds them. -/
theorem flushed_eq (c : Dev nD) (t : Fin cfg0.N) :
    (dats m 0 c).flushed 3 t
      = ((cfg0.win 3).blk t).view.read (Elt Ideal) (wholeResult (V m c main_arg0) (V m c main_arg1) (V m c main_v6)) := by
  rw [Value.flushed3]
  unfold out0_3
  rw [View.canon_unit_zero zero_offsets]
  simp only [View.ld_unit_zero (S := S4096x128) zero_offsets, View.ld_unit_zero (S := S4096x256) zero_offsets]
  obtain ⟨e00, e01, e10, e11, e20, e21, e3le, e31⟩ := index_facts t
  funext j
  show k0_pay1 (F := Ideal) (iblk m c 1 t) (iblk m c 2 t) (iblk m c 0 t) j
    = wholeResult (V m c main_arg0) (V m c main_arg1) (V m c main_v6) (((cfg0.win 3).blk t).view.emb j)
  refine stored_eq (V m c main_arg0) (V m c main_arg1) (V m c main_v6) (iblk m c 1 t) (iblk m c 2 t) (iblk m c 0 t) j
    (((cfg0.win 3).blk t).view.emb j) ?_ ?_ ?_ ?_
  · funext y
    show V m c main_arg1 (((cfg0.win 1).blk t).view.emb y) = V m c main_arg1 y
    refine congrArg (V m c main_arg1) (funext fun a => Fin.ext ?_)
    match a with
    | ⟨0, _⟩ => show win0_1.index t (0 : Fin 2) * 4096 + 1 * (y 0).val = (y 0).val; omega
    | ⟨1, _⟩ => show win0_1.index t (1 : Fin 2) * 128 + 1 * (y 1).val = (y 1).val; omega
  · funext y
    show V m c main_v6 (((cfg0.win 2).blk t).view.emb y) = V m c main_v6 y
    refine congrArg (V m c main_v6) (funext fun a => Fin.ext ?_)
    match a with
    | ⟨0, _⟩ => show win0_2.index t (0 : Fin 2) * 4096 + 1 * (y 0).val = (y 0).val; omega
    | ⟨1, _⟩ => show win0_2.index t (1 : Fin 2) * 256 + 1 * (y 1).val = (y 1).val; omega
  · intro d
    show V m c main_arg0 (((cfg0.win 0).blk t).view.emb (ix2 (j 0) d)) = V m c main_arg0 (ix2 ((((cfg0.win 3).blk t).view.emb j) 0) d)
    refine congrArg (V m c main_arg0) (funext fun a => Fin.ext ?_)
    match a with
    | ⟨0, _⟩ => show win0_0.index t (0 : Fin 2) * 4096 + 1 * (j 0).val = win0_3.index t (0 : Fin 2) * 4096 + 1 * (j 0).val; omega
    | ⟨1, _⟩ => show win0_0.index t (1 : Fin 2) * 128 + 1 * d.val = d.val; omega
  · apply Fin.ext
    show (j 1).val = win0_3.index t (1 : Fin 2) * 256 + 1 * (j 1).val
    omega

/-- An index of the output array is in point t's block iff each coordinate is in the block's range on its axis. -/
theorem mem_block (t : Fin cfg0.N) (i : S8192x256.Idx) :
    i ∈ ((cfg0.win 3).blk t).view.set
      ↔ ∀ a : Fin 2, win0_3.index t a * S4096x256.size a ≤ (i a).val ∧ (i a).val < win0_3.index t a * S4096x256.size a + S4096x256.size a := by
  show i ∈ ((View.whole main_v7).slice (win0_3.rect t)).set ↔ _
  rw [View.set_slice_whole, Rect.mem_set_unit]
  exact Iff.rfl

/-- The two row blocks cover the output array: row r lies in block r / 4096. -/
theorem covered (i : S8192x256.Idx) :
    ∃ t : Fin cfg0.N, (cfg0.win 3).flush t = true ∧ i ∈ ((cfg0.win 3).blk t).view.set := by
  have hi0 : (i 0).val < 8192 := (i 0).isLt
  have hi1 : (i 1).val < 256 := (i 1).isLt
  obtain ⟨t, ht⟩ := index_onto ⟨(i 0).val / 4096, by omega⟩
  have q0 : win0_3.index t (0 : Fin 2) = (i 0).val / 4096 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 4096 ≤ (i 0).val ∧ (i 0).val < win0_3.index t (0 : Fin 2) * 4096 + 4096; omega
  | ⟨1, _⟩ => show win0_3.index t (1 : Fin 2) * 256 ≤ (i 1).val ∧ (i 1).val < win0_3.index t (1 : Fin 2) * 256 + 256; omega

/-- The output array after the run is the whole-array function of the arrays as the kernel finds them. -/
theorem final (c : Dev nD) :
    (dats m 0 c).arrAt 3 cfg0.N = wholeResult (V m c main_arg0) (V m c main_arg1) (V m c main_v6) :=
  (dats m 0 c).arrAt_eq_of_cover 3 (wholeResult (V m c main_arg0) (V m c main_arg1) (V m c main_v6))
    (fun t _ => flushed_eq m c t) covered

end Cert.KernelIdeal.Whole

end
-- ==== Proof.Membership.lean ====
/-
  The membership array the host operations build before the kernel runs, read entry by entry.

  The host side lays the class numbers 0 … 255 along a row and repeats that row 4096 times, lays the 4096 labels along a
  column and repeats that column 256 times, compares the two 4096 × 256 arrays of words for equality, and converts
  each truth value to a float.  So the entry at (support row s, class q) compares row s's label with the word q: it
  is 1 when they are equal and 0 when they are not, which is the specification's membership indicator.  A broadcast
  along an axis of extent one reads coordinate 0 there and the result's own coordinate on every other axis; the
  conversion of a one-bit word to a float is its value as a natural number, 0 or 1, exactly.
-/
import proofs.«405989_j70617852281322_3_alg».proof.Proof.Gen.KernelIdeal.Frame
import proofs.«405989_j70617852281322_3_alg».proof.Proof.Spec
import Idealize.ShloMosaic.Lib.StableHlo.Run
import Idealize.ShloMosaic.Lib.StableHlo.Predicate
import Idealize.ShloMosaic.Lib.Pipeline.Value

namespace Cert.KernelIdeal.Membership

open Cert.KernelIdeal Cert.KernelIdeal.Gen Idealize.ShloMosaic Idealize.ShloMosaic.TcCoe Idealize.SL.Sem
  Idealize.ShloMosaic.ValueIdx

/-- The labels, set along a column and repeated across the 256 classes, read at (row s, class q): row s's label. -/
theorem labels_apply (lab : S4096.Idx → BitVec 32) (s : Fin 4096) (q : Fin 256) :
    broadcastInDim S4096x256 ![0, 1] bcast_S4096x1_S4096x256_0_1
        (broadcastInDim S4096x1 ![0] bcast_S4096_S4096x1_0 lab) (ix2 s q) = lab (ix1 s) := by
  -- 4096 × 1 → 4096 × 256: the row coordinate is kept, the unit axis reads 0
  rw [broadcastInDim_apply _ bcast_S4096x1_S4096x256_0_1 _ (ix2 s q) (ix2 s 0) (fun a => match a with
    | ⟨0, _⟩ => by show s.val = if (4096 : Nat) = 1 then 0 else s.val; rw [if_neg (by decide)]
    | ⟨1, _⟩ => by show (0 : Nat) = if (1 : Nat) = 1 then 0 else q.val; rw [if_pos rfl])]
  -- 4096 → 4096 × 1: the row coordinate is kept
  exact broadcastInDim_apply _ bcast_S4096_S4096x1_0 lab (ix2 s 0) (ix1 s) (fun a => match a with
    | ⟨0, _⟩ => by show s.val = if (4096 : Nat) = 1 then 0 else s.val; rw [if_neg (by decide)])

/-- The class numbers 0 … 255, set along a row and repeated down the 4096 rows, read at (row s, class q): the word q. -/
theorem classes_apply (s : Fin 4096) (q : Fin 256) :
    broadcastInDim S4096x256 ![0, 1] bcast_S1x256_S4096x256_0_1
        (broadcastInDim S1x256 ![1] bcast_S256_S1x256_1 (iotaInDim S256 32 0)) (ix2 s q) = BitVec.ofNat 32 q.val := by
  -- 1 × 256 → 4096 × 256: the unit axis reads 0, the class coordinate is kept
  rw [broadcastInDim_apply _ bcast_S1x256_S4096x256_0_1 _ (ix2 s q) (ix2 0 q) (fun a => match a with
    | ⟨0, _⟩ => by show (0 : Nat) = if (1 : Nat) = 1 then 0 else s.val; rw [if_pos rfl]
    | ⟨1, _⟩ => by show q.val = if (256 : Nat) = 1 then 0 else q.val; rw [if_neg (by decide)])]
  -- 256 → 1 × 256: the class coordinate is kept; the counting array at q is the word q
  exact broadcastInDim_apply _ bcast_S256_S1x256_1 (iotaInDim S256 32 0) (ix2 0 q) (ix1 q) (fun a => match a with
    | ⟨0, _⟩ => by show q.val = if (256 : Nat) = 1 then 0 else q.val; rw [if_neg (by decide)])

/-- The array the kernel finds in its third operand holds, at (support row s, class q), the membership indicator of
    the labels as launched: 1 when row s's label is the word q, else 0. -/
theorem hot_apply (m : (ℓ : Loc nD τ sig) → Buf (Elt Ideal) ℓ) (c : Dev nD) (s : Fin 4096) (q : Fin 256) :
    (V m c main_v6 : S4096x256.Idx → EReal) (ix2 s q)
      = Cert.ProtoDist.member (m ((c : Thread nD τ).loc main_arg2)) s q := by
  -- the array as the composite of the seven host operations over the launched labels
  have e : (V m c main_v6 : S4096x256.Idx → EReal)
      = uitofp (F := Ideal) .bf16 (cmpi .eq
          (broadcastInDim S4096x256 ![0, 1] bcast_S4096x1_S4096x256_0_1
            (broadcastInDim S4096x1 ![0] bcast_S4096_S4096x1_0 (m ((c : Thread nD τ).loc main_arg2))))
          (broadcastInDim S4096x256 ![0, 1] bcast_S1x256_S4096x256_0_1
            (broadcastInDim S1x256 ![1] bcast_S256_S1x256_1 (iotaInDim S256 32 0)))) := by
    dsimp only [Gen.V, Gen.hostOps0]; after_results
  rw [e]
  -- at one entry: the conversion of the comparison of the two broadcasts' entries
  show (((IntOp.cmpi .eq
      (broadcastInDim S4096x256 ![0, 1] bcast_S4096x1_S4096x256_0_1
        (broadcastInDim S4096x1 ![0] bcast_S4096_S4096x1_0 (m ((c : Thread nD τ).loc main_arg2))) (ix2 s q))
      (broadcastInDim S4096x256 ![0, 1] bcast_S1x256_S4096x256_0_1
        (broadcastInDim S1x256 ![1] bcast_S256_S1x256_1 (iotaInDim S256 32 0)) (ix2 s q))).toNat : ℝ) : EReal) = _
  rw [labels_apply, classes_apply]
  unfold Cert.ProtoDist.member
  -- equal words compare to the bit 1, unequal words to the bit 0
  split_ifs with hq
  · simp [IntOp.cmpi, hq]
  · simp [IntOp.cmpi, hq]

end Cert.KernelIdeal.Membership
-- ==== Proof.Finite.lean ====
/-
  What the finiteness precondition says of the arrays, entry by entry.

  The precondition compares |v| < +∞ at every entry of the query array and of the support array, folds each array of
  truth values by "and" starting from true, and joins the two results by "and".  If the outcome is true then both folds
  are true, a fold by "and" that is true met only true entries, and so |v| < +∞ holds at every entry of both arrays.

  On the extended reals |v| is max (v, −v) and the bound, the float pattern of +∞, is ⊤.  Of the three kinds of extended
  real, −∞ has |v| = max (⊥, ⊤) = ⊤ and +∞ has |v| = ⊤, neither below ⊤; what is left is a real number.  Hence every
  entry of both arrays is (the embedding of) a real number.  The label array plays no part.
-/
import proofs.«405989_j70617852281322_3_alg».proof.Pre_finite_inputs
import proofs.«405989_j70617852281322_3_alg».proof.Proof.Gen.Pre_finite_inputs
import Idealize.ShloMosaic.PureOps.Ideal
import Idealize.ShloMosaic.Lib.ValueIdx
import Idealize.ShloMosaic.Lib.ReduceAll

namespace Cert.Finite

open Idealize.ShloMosaic Cert.Pre_finite_inputs Cert.Pre_finite_inputs.Gen

/-- A shape of rank zero has exactly one index. -/
instance subsingleton_scalarIdx : Subsingleton S_.Idx := ⟨fun _ _ => funext fun d => d.elim0⟩

/-- The f32 pattern of +∞ denotes ⊤. -/
theorem inf_f32 : Ideal.ofBits .f32 0x7F800000#32 = ⊤ := by
  simp [Ideal.ofBits, Ideal.ieee]

/-- An extended real whose absolute value max (a, −a) compares below +∞ is a real number: at either infinity the
    absolute value is ⊤ itself. -/
theorem real_of_abs_lt (a : EReal)
    (h : Ideal.cmp .olt (max a (-a)) (Ideal.ofBits .f32 0x7F800000#32) = 1#1) : ∃ r : ℝ, a = (r : EReal) := by
  rw [inf_f32] at h
  have hlt : max a (-a) < ⊤ := by
    by_contra hn
    simp [Ideal.cmp, hn] at h
  induction a using EReal.rec with
  | bot => simp at hlt
  | coe r => exact ⟨r, rfl⟩
  | top => simp at hlt

/-- If the finiteness predicate holds of (x, s, l), every entry of x and every entry of s is a real number. -/
theorem real_of_pre (x : FVec Ideal S8192x128 .f32) (s : FVec Ideal S4096x128 .f32) (l : IVec S4096 32)
    (h : Cert.Pre_finite_inputs.fn (F := Ideal) x s l = fun _ => 1#1) :
    (∀ i, ∃ r : ℝ, x i = (r : EReal)) ∧ (∀ i, ∃ r : ℝ, s i = (r : EReal)) := by
  -- the predicate at its single index: the "and" of the two folds
  have h0 := congrFun h ValueIdx.ix0
  dsimp only [Cert.Pre_finite_inputs.fn] at h0
  obtain ⟨hx, hs⟩ := IntOp.andi_eq_one.1 h0
  -- each fold over a whole array gives the comparison at every entry; the comparison at an entry is
  -- |v| < +∞ by unfolding the entrywise operations
  exact ⟨fun i => real_of_abs_lt (x i) (Host.reduce_andi_all _ _ _ _ _ hx i),
    fun i => real_of_abs_lt (s i) (Host.reduce_andi_all _ _ _ _ _ hs i)⟩

end Cert.Finite
-- ==== Proof.Expand.lean ====
/-
  The two arrangements of the squared distance agree on real entries.

  The direct arrangement is  −Σ_d (x_d − c_d)²;  the expanded one is  0 − max (Σ_d x_d² + Σ_d c_d² − 2·Σ_d x_d c_d, 0),
  where c is a class prototype: the sum of the member support rows divided by max (member count, 1).

  On the extended reals the expansion is not an identity (an infinite entry gives ∞ − ∞), so finiteness is what carries
  the proof.  When every query and support entry is a real number: each membership indicator is 0 or 1, hence the member
  count and every class sum are finite sums of reals and so real; max (count, 1) is a real that is at least 1, in
  particular not zero, so the quotient is the ordinary product with the reciprocal and each prototype coordinate is a
  real number.  For real families a, c the binomial expansion Σ (a − c)² = Σ a² + Σ c² − 2 Σ a c holds in ℝ, the left
  side is a sum of squares and so nonnegative, the clamp at zero is therefore the identity, and 0 − y = −y.
-/
import proofs.«405989_j70617852281322_3_alg».proof.Proof.Spec

namespace Cert.ProtoDist

open Idealize.ShloMosaic Idealize.ShloMosaic.ValueIdx

/-- The embedding of ℝ in the extended reals commutes with a finite sum over coordinates. -/
theorem coe_sum_coord (s : Finset (Fin 128)) (f : Fin 128 → ℝ) :
    ((∑ d ∈ s, f d : ℝ) : EReal) = ∑ d ∈ s, (f d : EReal) := by
  classical
  induction s using Finset.induction_on with
  | empty => simp
  | insert a s ha ih => rw [Finset.sum_insert ha, Finset.sum_insert ha, EReal.coe_add, ih]

/-- A membership indicator is a real number (0 or 1). -/
theorem member_real (lab : SLabel.Idx → BitVec 32) (s : Fin 4096) (q : Fin 256) :
    ∃ r : ℝ, member lab s q = (r : EReal) := by
  unfold member
  split_ifs
  · exact ⟨1, by simp⟩
  · exact ⟨0, by simp⟩

/-- The member count of a class is a real number: a finite sum of reals. -/
theorem count_real (lab : SLabel.Idx → BitVec 32) (q : Fin 256) : ∃ r : ℝ, count lab q = (r : EReal) := by
  unfold count
  refine Finset.sum_induction _ (fun v : EReal => ∃ r : ℝ, v = (r : EReal)) ?_ ⟨0, by simp⟩
    (fun s _ => member_real lab s q)
  rintro _ _ ⟨u, rfl⟩ ⟨v, rfl⟩
  exact ⟨u + v, (EReal.coe_add u v).symm⟩

/-- Each coordinate of a class sum is a real number when the support entries are. -/
theorem classSum_real (sup : SSupport.Idx → EReal) (lab : SLabel.Idx → BitVec 32)
    (hs : ∀ i, ∃ r : ℝ, sup i = (r : EReal)) (q : Fin 256) (d : Fin 128) :
    ∃ r : ℝ, classSum sup lab q d = (r : EReal) := by
  unfold classSum
  refine Finset.sum_induction _ (fun v : EReal => ∃ r : ℝ, v = (r : EReal)) ?_ ⟨0, by simp⟩ ?_
  · rintro _ _ ⟨u, rfl⟩ ⟨v, rfl⟩
    exact ⟨u + v, (EReal.coe_add u v).symm⟩
  · intro s _
    obtain ⟨m, hm⟩ := member_real lab s q
    obtain ⟨v, hv⟩ := hs (ix2 s d)
    exact ⟨m * v, by rw [hm, hv, EReal.coe_mul]⟩

/-- Each prototype coordinate is a real number: the divisor max (count, 1) is a real ≥ 1, so it is not zero. -/
theorem proto_real (sup : SSupport.Idx → EReal) (lab : SLabel.Idx → BitVec 32)
    (hs : ∀ i, ∃ r : ℝ, sup i = (r : EReal)) (q : Fin 256) (d : Fin 128) :
    ∃ r : ℝ, proto sup lab q d = (r : EReal) := by
  obtain ⟨n, hn⟩ := count_real lab q
  obtain ⟨m, hm⟩ := classSum_real sup lab hs q d
  have hmax : max (n : EReal) 1 = ((max n 1 : ℝ) : EReal) := by
    rw [← EReal.coe_one]
    exact (EReal.coe_strictMono.monotone.map_max).symm
  have hne : (max n 1 : ℝ) ≠ 0 := ne_of_gt (lt_of_lt_of_le one_pos (le_max_right n 1))
  unfold proto
  rw [hn, hm, hmax, Ideal.div_coe hne]
  exact ⟨m * (1 / max n 1), (EReal.coe_mul _ _).symm⟩

/-- The expansion for real families: Σ a² + Σ c² − 2 Σ a c is Σ (a − c)², a nonnegative real, so the clamp at zero
    does nothing and subtracting from zero negates. -/
theorem expand_real (a c : Fin 128 → ℝ) :
    (0 : EReal) - max (((∑ d, (a d : EReal) * (a d : EReal)) + (∑ d, (c d : EReal) * (c d : EReal)))
        - 2 * (∑ d, (a d : EReal) * (c d : EReal))) 0
      = -(∑ d, ((a d : EReal) - (c d : EReal)) * ((a d : EReal) - (c d : EReal))) := by
  have h2 : (2 : EReal) = ((2 : ℝ) : EReal) := by norm_cast
  have key : (∑ d, a d * a d) + (∑ d, c d * c d) - 2 * (∑ d, a d * c d) = ∑ d, (a d - c d) * (a d - c d) := by
    rw [Finset.mul_sum, ← Finset.sum_add_distrib, ← Finset.sum_sub_distrib]
    exact Finset.sum_congr rfl (fun d _ => by ring)
  simp only [← EReal.coe_mul, ← EReal.coe_sub, ← coe_sum_coord]
  rw [h2, ← EReal.coe_mul, ← EReal.coe_add, ← EReal.coe_sub, key,
    max_eq_left (EReal.coe_nonneg.mpr (Finset.sum_nonneg (fun d _ => mul_self_nonneg _))), zero_sub]

/-- With real query and support entries the expanded arrangement equals the direct one, entry by entry. -/
theorem negDistExpanded_eq (x : SQuery.Idx → EReal) (sup : SSupport.Idx → EReal) (lab : SLabel.Idx → BitVec 32)
    (hx : ∀ i, ∃ r : ℝ, x i = (r : EReal)) (hs : ∀ i, ∃ r : ℝ, sup i = (r : EReal)) :
    negDistExpanded x sup lab = negDist x sup lab := by
  funext i
  choose xr hxr using hx
  choose cr hcr using proto_real sup lab hs (i 1)
  unfold negDistExpanded negDist
  simp only [hxr, hcr]
  exact expand_real (fun d => xr (ix2 (i 0) d)) cr

end Cert.ProtoDist
-- ==== Proof.Bridge.lean ====
/-
  The kernel's whole-array function is the specification's expanded arrangement, and under the precondition it is
  the direct arrangement.

  The membership array holds, at (s, q), 1 when support row s carries label q and 0 otherwise; the kernel counts a
  class's members as Σ_s membership · 1 with a sixteen-bit-float one and floors the count at a thirty-two-bit-float
  one, both the number 1; its zero and two are the numbers 0 and 2. With these the prototype the body forms from its
  blocks is the specification's prototype, and the stored formula is the expanded arrangement. Finiteness of the
  query and support entries then turns the expanded arrangement into the direct one.
-/
import proofs.«405989_j70617852281322_3_alg».proof.Proof.Whole
import proofs.«405989_j70617852281322_3_alg».proof.Proof.Membership
import proofs.«405989_j70617852281322_3_alg».proof.Proof.Finite
import proofs.«405989_j70617852281322_3_alg».proof.Proof.Expand

noncomputable section

namespace Cert.KernelIdeal.Bridge

open Cert.KernelIdeal Cert.KernelIdeal.Gen Idealize.ShloMosaic Idealize.ShloMosaic.TcCoe Idealize.SL.Sem
open Idealize.ShloMosaic.ValueIdx
open Cert.KernelIdeal.Payload Cert.KernelIdeal.Whole

/-- The prototype formed from the blocks is the specification's, when the membership block is the indicator of the labels. -/
theorem blockProto_eq (sup : FVec Ideal S4096x128 .f32) (hot : FVec Ideal S4096x256 .bf16) (lab : S4096.Idx → BitVec 32)
    (h : ∀ (s : Fin 4096) (q : Fin 256), hot (ix2 s q) = Cert.ProtoDist.member lab s q) (q : Fin 256) (d : Fin 128) :
    blockProto sup hot q d = Cert.ProtoDist.proto sup lab q d := by
  unfold blockProto Cert.ProtoDist.proto Cert.ProtoDist.classSum Cert.ProtoDist.count
  simp only [h, Cert.ProtoDist.one_bf16, Cert.ProtoDist.one_f32, mul_one]

/-- So the whole-array function is the expanded arrangement of the specification. -/
theorem wholeResult_eq (x : FVec Ideal S8192x128 .f32) (sup : FVec Ideal S4096x128 .f32) (hot : FVec Ideal S4096x256 .bf16)
    (lab : S4096.Idx → BitVec 32)
    (h : ∀ (s : Fin 4096) (q : Fin 256), hot (ix2 s q) = Cert.ProtoDist.member lab s q) :
    wholeResult x sup hot = Cert.ProtoDist.negDistExpanded x sup lab := by
  funext i
  have hb : ∀ d : Fin 128, blockProto sup hot (i 1) d = Cert.ProtoDist.proto sup lab (i 1) d :=
    fun d => blockProto_eq sup hot lab h (i 1) d
  unfold wholeResult Cert.ProtoDist.negDistExpanded
  simp only [hb, Cert.ProtoDist.zero_f32, Cert.ProtoDist.two_f32]

variable (m : (ℓ : Loc nD τ sig) → Buf (Elt Ideal) ℓ)

/-- Under the precondition the output array ends as minus the squared distances to the class prototypes. -/
theorem result_eq (c : Dev nD)
    (hpre : Cert.Pre_finite_inputs.fn (F := Ideal) (m ((c : Thread nD τ).loc main_arg0)) (m ((c : Thread nD τ).loc main_arg1))
      (m ((c : Thread nD τ).loc main_arg2)) = fun _ => 1#1) :
    (dats m 0 c).arrAt 3 cfg0.N
      = Cert.ProtoDist.negDist (m ((c : Thread nD τ).loc main_arg0)) (m ((c : Thread nD τ).loc main_arg1))
          (m ((c : Thread nD τ).loc main_arg2)) := by
  obtain ⟨hx, hs⟩ := Cert.Finite.real_of_pre _ _ _ hpre
  rw [Whole.final, wholeResult_eq _ _ _ (m ((c : Thread nD τ).loc main_arg2)) (fun s q => Cert.KernelIdeal.Membership.hot_apply m c s q),
    V_main_arg0, V_main_arg1]
  exact Cert.ProtoDist.negDistExpanded_eq _ _ _ hx hs

end Cert.KernelIdeal.Bridge

end
-- ==== Proof.lean ====
/-
  Prototype classification by squared Euclidean distance: the kernel against its reference.

  Both programs take 8192 queries and 4096 labelled support rows of 128 coordinates, form for each of 256 classes
  the prototype (the sum of the class's support rows over max (number of rows, 1); a label outside 0 … 255 joins no
  class in either program), and return minus the squared distance from each query to each prototype.

  The reference gathers the class sums and counts by an accumulating scatter and sums (x − c)² over the coordinates.
  The kernel builds a 0/1 membership matrix on the host, obtains the sums and counts as matrix products with it,
  and uses |x|² + |c|² − 2 x·c, kept from falling below zero. On exact values the scatter and the products are the
  same sums (Proof/RefValue.lean, Proof/Payload.lean, Proof/Membership.lean); the expansion of the square is an
  identity of real numbers, and the value it expands is a sum of squares, so the floor at zero changes nothing
  (Proof/Expand.lean). That last step needs every entry finite — an infinite entry would make the expansion ∞ − ∞ —
  and the precondition supplies it (Proof/Finite.lean).

  The three frames are the generated ones (the reference's is its generated run with the result dropped); the
  idealization rewrote nothing, so the kernel and its idealized reading differ by no sanctioned step to justify.
-/
import proofs.«405989_j70617852281322_3_alg».proof.Defs
import proofs.«405989_j70617852281322_3_alg».proof.Proof.Gen.Kernel
import proofs.«405989_j70617852281322_3_alg».proof.Proof.Gen.Kernel.Skeleton
import proofs.«405989_j70617852281322_3_alg».proof.Proof.Gen.Kernel.Launch
import proofs.«405989_j70617852281322_3_alg».proof.Proof.Gen.Kernel.Points
import proofs.«405989_j70617852281322_3_alg».proof.Proof.Gen.Kernel.Frame
import proofs.«405989_j70617852281322_3_alg».proof.Proof.Gen.KernelIdeal
import proofs.«405989_j70617852281322_3_alg».proof.Proof.Gen.KernelIdeal.Skeleton
import proofs.«405989_j70617852281322_3_alg».proof.Proof.Gen.KernelIdeal.Launch
import proofs.«405989_j70617852281322_3_alg».proof.Proof.Gen.KernelIdeal.Points
import proofs.«405989_j70617852281322_3_alg».proof.Proof.Gen.KernelIdeal.Frame
import proofs.«405989_j70617852281322_3_alg».proof.Proof.Gen.ReferenceIdeal
import proofs.«405989_j70617852281322_3_alg».proof.Proof.Gen.Pre_finite_inputs
import proofs.«405989_j70617852281322_3_alg».proof.Proof.Gen.KernelIdeal.Value
import proofs.«405989_j70617852281322_3_alg».proof.Proof.Gen.ReferenceIdeal.Run
import proofs.«405989_j70617852281322_3_alg».proof.Proof.Gen.ReferenceIdeal.Read
import proofs.«405989_j70617852281322_3_alg».proof.Proof.RefValue
import proofs.«405989_j70617852281322_3_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- On exact values, from memories that agree on the three arguments and satisfy the precondition, both programs end
    with minus the squared distances to the class prototypes of the launch arguments. -/
theorem algebraic : Cert.algebraic_KernelIdeal_ReferenceIdeal := by
  intro m ρ m' ρ' hpre hagree
  refine ⟨fun c => Cert.ProtoDist.negDist
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.Bridge.result_eq m c (hpre c)), (h c).2⟩)
      (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2]
    exact (Cert.ReferenceIdeal.Read.val_main_v19_eq _ _ _).trans (Cert.ReferenceIdeal.RefValue.ref_eq_negDist _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
